-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S128 .f32) (main_arg7 : FVec F S128x8 .f32) (main_arg8 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg7
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x8 .f32) (main_arg8 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S10000x128 : Shape := ⟨2, ![10000, 128]⟩
abbrev S1700000x128 : Shape := ⟨2, ![1700000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x8 : Shape := ⟨2, ![1, 8]⟩
abbrev S64x8 : Shape := ⟨2, ![64, 8]⟩

abbrev nBuf : Space → Nat
  | .hbm => 113
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S128x128, .bf16⟩
  | .hbm, ⟨53, _⟩ => ⟨S128x128, .bf16⟩
  | .hbm, ⟨54, _⟩ => ⟨S1x128, .f32⟩
  | .hbm, ⟨55, _⟩ => ⟨S1x128, .f32⟩
  | .hbm, ⟨56, _⟩ => ⟨S100000x128, .bf16⟩
  | .hbm, ⟨57, _⟩ => ⟨S100000x128, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S100000x128, .f32⟩
  | .hbm, ⟨75, _⟩ => ⟨S100000x128, .bf16⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S64x128, .f32⟩
  | .hbm, ⟨96, _⟩ => ⟨S100000x1, .i32⟩
  | .hbm, ⟨97, _⟩ => ⟨S64x128, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S64, .f32⟩
  | .hbm, ⟨102, _⟩ => ⟨S100000x1, .i32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64x1, .f32⟩
  | .hbm, ⟨108, _⟩ => ⟨S64x128, .f32⟩
  | .hbm, ⟨109, _⟩ => ⟨S64x128, .f32⟩
  | .hbm, ⟨110, _⟩ => ⟨S128x8, .bf16⟩
  | .hbm, ⟨111, _⟩ => ⟨S1x8, .f32⟩
  | .hbm, ⟨112, _⟩ => ⟨S64x8, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S64x128, .f32⟩
  | .local _ .vmem, ⟨21, _⟩ => ⟨S128x8, .bf16⟩
  | .local _ .vmem, ⟨22, _⟩ => ⟨S1x8, .f32⟩
  | .local _ .vmem, ⟨23, _⟩ => ⟨S64x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x8 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S8_S1x8 : S8.ShapeCasts S1x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x8.size a ≤ S128x8.size a
  hwx4_1 : ∀ i : grid4.Coords, EltTy.bits .bf16 = 32 ∨ (Rect.block (s := S128x8) S128x8.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x8.size a ≤ S64x8.size a
  hwx4_3 : ∀ i : grid4.Coords, EltTy.bits .f32 = 32 ∨ (Rect.block (s := S64x8) S64x8.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_v36) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v80) S128x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S64x8.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S64x128, .f32⟩
  | .hbm, ⟨97, _⟩ => ⟨S100000x1, .i32⟩
  | .hbm, ⟨98, _⟩ => ⟨S64x128, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S64, .f32⟩
  | .hbm, ⟨103, _⟩ => ⟨S100000x1, .i32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x128, .f32⟩
  | .hbm, ⟨110, _⟩ => ⟨S64x128, .f32⟩
  | .hbm, ⟨111, _⟩ => ⟨S64x8, .f32⟩
  | .hbm, ⟨112, _⟩ => ⟨S1x8, .f32⟩
  | .hbm, ⟨113, _⟩ => ⟨S64x8, .f32⟩
  | .hbm, ⟨114, _⟩ => ⟨S64x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x8_S64x8_1_0_0_1_n_n_wf : DotDims.WF S64x128 S128x8 S64x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

class Facts : Prop extends Facts₀ where

variable [Facts]
-- ==== Proof.FirstProduct.lean ====
/-
  The first product. Region 0 of the kernel's program multiplies the node features, ten blocks of 10000 rows, by the
  128 x 128 weight matrix, each block's rows times the whole matrix into a zero accumulator. Over the extended
  reals a row of a block times the matrix is the same sum over the 128 inner coordinates whichever block the row
  sits in, so the array the region leaves is ONE function of the two arrays it found: entry (r, c) is the sum over
  k of the features at (r, k) times the weights at (k, c).
-/
import proofs.«145099_j2619930050604_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen Idealize.ShloMosaic Idealize.ShloMosaic.TcCoe Idealize.SL.Sem
open Idealize.ShloMosaic.Pipeline (Dat Cfg Window)

/-- Row `r` of the features at inner coordinate `k`, and the weights at (k, column of `i`). -/
abbrev rowAt (i : S100000x128.Idx) (k : Fin 128) : S100000x128.Idx := fun a => match a with
  | ⟨0, _⟩ => ⟨(i 0).val, (i 0).isLt⟩
  | ⟨1, _⟩ => ⟨k.val, k.isLt⟩
abbrev colAt (i : S100000x128.Idx) (k : Fin 128) : S128x128.Idx := fun a => match a with
  | ⟨0, _⟩ => ⟨k.val, k.isLt⟩
  | ⟨1, _⟩ => ⟨(i 1).val, (i 1).isLt⟩

/-- The product of a [100000, 128] array with a [128, 128] one over the extended reals, entry by entry. -/
def prod (x : S100000x128.Idx → EReal) (w : S128x128.Idx → EReal) : S100000x128.Idx → EReal :=
  fun i => ∑ k : Fin 128, x (rowAt i k) * w (colAt i k)

/-- The same two index maps inside one block of 10000 rows. -/
abbrev blkRowAt (j : S10000x128.Idx) (k : Fin 128) : S10000x128.Idx := fun a => match a with
  | ⟨0, _⟩ => ⟨(j 0).val, (j 0).isLt⟩
  | ⟨1, _⟩ => ⟨k.val, k.isLt⟩
abbrev blkColAt (j : S10000x128.Idx) (k : Fin 128) : S128x128.Idx := fun a => match a with
  | ⟨0, _⟩ => ⟨k.val, k.isLt⟩
  | ⟨1, _⟩ => ⟨(j 1).val, (j 1).isLt⟩

theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- One block's product into the zero accumulator, read at an entry: the sum over the inner coordinate. -/
theorem blockProd_apply (xb : FVec Ideal S10000x128 .bf16) (wb : FVec Ideal S128x128 .bf16) (j : S10000x128.Idx) :
    matmul dot_S10000x128_S128x128_S10000x128_1_0_0_1_n_n none xb wb (constant S10000x128 .f32 0x00000000#32) j
      = ∑ k : Fin 128, xb (blkRowAt j k) * wb (blkColAt j k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blkRowAt j k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx j ((ValueIdx.contrEquiv1 dot_S10000x128_S128x128_S10000x128_1_0_0_1_n_n 128 rfl rfl).symm k) = blkColAt j k := funext fun a => Fin.ext (by
    match a with
    | ⟨0, _⟩ => exact (rhs_blk_0 _ _).trans hk
    | ⟨1, _⟩ => exact rhs_blk_1 _ _)
  rw [el, er]

/-- The body's stored value is that product of its two loaded blocks (the casts to the same shape are identities). -/
theorem payload_apply (xb : Vec Ideal S10000x128 .bf16) (wb : Vec Ideal S128x128 .bf16) (j : S10000x128.Idx) :
    k0_pay1 (F := Ideal) xb wb j = ∑ k : Fin 128, xb (blkRowAt j k) * wb (blkColAt j k) := by
  unfold k0_pay1
  simp only [shapeCast_self]
  exact blockProd_apply xb wb j

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the ten points: the features' block and the result's block move together down the
    rows, point `t` at block row `t`; the weights' block, and every block's column index, stay at 0. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the product of the two arrays the region found. -/
theorem flushed_eq (c : Dev nD) (t : Fin cfg0.N) :
    (dat0 V c).flushed 2 t = ((cfg0.win 2).blk t).view.read (Elt Ideal) (prod (V c main_v36) (V c main_v32)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  obtain ⟨e0, e1, e2, e3, e4, e5⟩ := blockIndices t
  funext j
  show k0_pay1 (F := Ideal) (iblk0 V c 0 t) (iblk0 V c 1 t) j = prod (V c main_v36) (V c main_v32) (((cfg0.win 2).blk t).view.emb j)
  refine (payload_apply (iblk0 V c 0 t) (iblk0 V c 1 t) j).trans ?_
  unfold prod
  refine Finset.sum_congr rfl fun k _ => ?_
  have hx : iblk0 V c 0 t (blkRowAt j k) = V c main_v36 (rowAt (((cfg0.win 2).blk t).view.emb j) k) := by
    show V c main_v36 (((cfg0.win 0).blk t).view.emb (blkRowAt j k)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : iblk0 V c 1 t (blkColAt j k) = V c main_v32 (colAt (((cfg0.win 2).blk t).view.emb j) k) := by
    show V c main_v32 (((cfg0.win 1).blk t).view.emb (blkColAt j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the result array lies in point `t`'s block iff each coordinate lies in the block's range. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v37).slice (win0_2.rect t)).set ↔ _
  rw [View.set_slice_whole, Rect.mem_set_unit]
  exact Iff.rfl

/-- The ten blocks cover the array: row `r` is in the block of point `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := blockIndices t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e5]; show (i 0).val / 10000 * 10000 ≤ (i 0).val ∧ (i 0).val < (i 0).val / 10000 * 10000 + 10000; omega
  | ⟨1, _⟩ =>
    show win0_2.index t (1 : Fin 2) * 128 ≤ (i 1).val ∧ (i 1).val < win0_2.index t (1 : Fin 2) * 128 + 128
    rw [e4]; omega

/-- THE ARRAY region 0 leaves: the product of the two arrays it found. -/
theorem array_eq (c : Dev nD) : (dat0 V c).arrAt 2 cfg0.N = prod (V c main_v36) (V c main_v32) :=
  (dat0 V c).arrAt_eq_of_cover 2 _ (fun t _ => flushed_eq V c t) covered

end Cert.KernelIdeal.FirstProduct

end
-- ==== Proof.SecondProduct.lean ====
/-
  The second product. Region 2 multiplies the hidden features (after the first layer's bias and rectifier), again ten
  blocks of 10000 rows, by the second 128 x 128 weight matrix. The array it leaves is the same function `prod` of
  the two arrays it found as the first product's: a row's entry is the sum over the inner coordinate whichever block
  holds the row.
-/
import proofs.«145099_j2619930050604_1_alg».proof.Proof.FirstProduct

set_option maxRecDepth 16384

noncomputable section

namespace Cert.KernelIdeal.SecondProduct

open Cert.KernelIdeal Cert.KernelIdeal.Gen Cert.KernelIdeal.FirstProduct Idealize.ShloMosaic Idealize.ShloMosaic.TcCoe Idealize.SL.Sem
open Idealize.ShloMosaic.Pipeline (Dat Cfg Window)

/-- This body's stored value is the product of its two loaded blocks too. -/
theorem payload_apply (xb : Vec Ideal S10000x128 .bf16) (wb : Vec Ideal S128x128 .bf16) (j : S10000x128.Idx) :
    k2_pay1 (F := Ideal) xb wb j = ∑ k : Fin 128, xb (blkRowAt j k) * wb (blkColAt j k) := by
  unfold k2_pay1
  simp only [shapeCast_self]
  exact blockProd_apply xb wb j

variable (V : (c : Dev nD) → (b : Ref sig .tc) → Buf (Elt Ideal) ((c : Thread nD τ).loc b))

/-- The printed index maps over the ten points: the hidden features' block and the result's block at block row `t`,
    every other block index 0. -/
theorem blockIndices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of the product of the two arrays the region found. -/
theorem flushed_eq (c : Dev nD) (t : Fin cfg2.N) :
    (dat2 V c).flushed 2 t = ((cfg2.win 2).blk t).view.read (Elt Ideal) (prod (V c main_v52) (V c main_v33)) := by
  show (cfg2.win 2).cut (grid2.coords t) ((dat2 V c).after 2 t) = _
  rw [after2_2]
  unfold out2_2
  rw [View.canon_unit_zero zeroOffsets]
  simp only [View.ld_unit_zero (S := S10000x128) zeroOffsets, View.ld_unit_zero (S := S128x128) zeroOffsets]
  obtain ⟨e0, e1, e2, e3, e4, e5⟩ := blockIndices t
  funext j
  show k2_pay1 (F := Ideal) (iblk2 V c 0 t) (iblk2 V c 1 t) j = prod (V c main_v52) (V c main_v33) (((cfg2.win 2).blk t).view.emb j)
  refine (payload_apply (iblk2 V c 0 t) (iblk2 V c 1 t) j).trans ?_
  unfold prod
  refine Finset.sum_congr rfl fun k _ => ?_
  have hx : iblk2 V c 0 t (blkRowAt j k) = V c main_v52 (rowAt (((cfg2.win 2).blk t).view.emb j) k) := by
    show V c main_v52 (((cfg2.win 0).blk t).view.emb (blkRowAt j k)) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have hw : iblk2 V c 1 t (blkColAt j k) = V c main_v33 (colAt (((cfg2.win 2).blk t).view.emb j) k) := by
    show V c main_v33 (((cfg2.win 1).blk t).view.emb (blkColAt j k)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An index of the result array lies in point `t`'s block iff each coordinate lies in the block's range. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v53).slice (win2_2.rect t)).set ↔ _
  rw [View.set_slice_whole, Rect.mem_set_unit]
  exact Iff.rfl

/-- The ten blocks cover the array: row `r` is in the block of point `r / 10000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e0, e1, e2, e3, e4, e5⟩ := blockIndices t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    rw [e5]; show (i 0).val / 10000 * 10000 ≤ (i 0).val ∧ (i 0).val < (i 0).val / 10000 * 10000 + 10000; omega
  | ⟨1, _⟩ =>
    show win2_2.index t (1 : Fin 2) * 128 ≤ (i 1).val ∧ (i 1).val < win2_2.index t (1 : Fin 2) * 128 + 128
    rw [e4]; omega

/-- THE ARRAY region 2 leaves: the product of the two arrays it found. -/
theorem array_eq (c : Dev nD) : (dat2 V c).arrAt 2 cfg2.N = prod (V c main_v52) (V c main_v33) :=
  (dat2 V c).arrAt_eq_of_cover 2 _ (fun t _ => flushed_eq V c t) covered

end Cert.KernelIdeal.SecondProduct

end
-- ==== Proof.BiasRelu.lean ====
/-
  The first layer's bias and rectifier. Region 1 takes the aggregated features, ten blocks of 10000 rows, adds the
  bias row (a [1, 128] array, the same row under every block) and takes the maximum with zero. Entry (r, c) of
  what it leaves is max (a (r, c) + b (0, c)) 0: a function of the entry alone, so the blocks are restrictions of
  one whole-array function.
-/
import proofs.«145099_j2619930050604_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.Pipeline (Dat Cfg Window)

/-- The bias row's entry under column `c` of an index (r, c): (0, c). -/
abbrev rowZero (i : S100000x128.Idx) : S1x128.Idx := fun a => match a with
  | ⟨0, _⟩ => ⟨0, Nat.one_pos⟩
  | ⟨1, _⟩ => ⟨(i 1).val, (i 1).isLt⟩
/-- The same inside one block of 10000 rows. -/
abbrev blkRowZero (j : S10000x128.Idx) : S1x128.Idx := fun a => match a with
  | ⟨0, _⟩ => ⟨0, Nat.one_pos⟩
  | ⟨1, _⟩ => ⟨(j 1).val, (j 1).isLt⟩

/-- Bias added row-wise, entry by entry. -/
def addRow (a : FVec Ideal S100000x128 .f32) (b : FVec Ideal S1x128 .f32) : FVec Ideal S100000x128 .f32 :=
  fun i => FloatOps.addf (a i) (b (rowZero i))

/-- Bias added row-wise, then the maximum with the zero word's value. -/
def addRowRelu (a : FVec Ideal S100000x128 .f32) (b : FVec Ideal S1x128 .f32) : FVec Ideal S100000x128 .f32 :=
  fun i => FloatOps.maximumf (FloatOps.addf (a i) (b (rowZero i))) (FloatOps.ofBits .f32 0x00000000#32)

/-- The bias row broadcast down a block, read at an entry: the row at the entry's column. -/
theorem broadcastRow_apply (bb : FVec Ideal S1x128 .f32) (j : S10000x128.Idx) :
    broadcastTo S10000x128 bb broadcasts_S1x128_S10000x128 j = bb (blkRowZero j) :=
  broadcastTo_apply bb broadcasts_S1x128_S10000x128 j (blkRowZero j) (fun a => match a with
    | ⟨0, _⟩ => by show 0 = if (1 : Nat) = 1 then 0 else _; rw [if_pos rfl]
    | ⟨1, _⟩ => by show (j 1).val = if (128 : Nat) = 1 then 0 else _; rw [if_neg (by decide)]; rfl)

/-- The body's stored value at an entry of the block. -/
theorem payload_apply (xb : FVec Ideal S10000x128 .f32) (bb : FVec Ideal S1x128 .f32) (j : S10000x128.Idx) :
    k1_pay1 (F := Ideal) xb bb j = FloatOps.maximumf (FloatOps.addf (xb j) (bb (blkRowZero j))) (FloatOps.ofBits .f32 0x00000000#32) := by
  unfold k1_pay1
  simp only [shapeCast_self]
  show FloatOps.maximumf (FloatOps.addf (xb j) (broadcastTo S10000x128 bb broadcasts_S1x128_S10000x128 j)) (FloatOps.ofBits .f32 0x00000000#32) = _
  rw [broadcastRow_apply]

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the ten points: the input's block and the result's block at block row `t`, the bias
    row's block and every column index at 0. -/
theorem blockIndices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the biased, rectified array. -/
theorem flushed_eq (c : Dev nD) (t : Fin cfg1.N) :
    (dat1 V c).flushed 2 t = ((cfg1.win 2).blk t).view.read (Elt Ideal) (addRowRelu (V c main_v50) (V c main_v34)) := by
  show (cfg1.win 2).cut (grid1.coords t) ((dat1 V c).after 2 t) = _
  rw [after1_2]
  unfold out1_2
  rw [View.canon_unit_zero zeroOffsets]
  simp only [View.ld_unit_zero (S := S10000x128) zeroOffsets, View.ld_unit_zero (S := S1x128) zeroOffsets]
  obtain ⟨e0, e1, e2, e3, e4, e5⟩ := blockIndices t
  funext j
  show k1_pay1 (F := Ideal) (iblk1 V c 0 t) (iblk1 V c 1 t) j = addRowRelu (V c main_v50) (V c main_v34) (((cfg1.win 2).blk t).view.emb j)
  refine (payload_apply (iblk1 V c 0 t) (iblk1 V c 1 t) j).trans ?_
  unfold addRowRelu
  have hx : iblk1 V c 0 t j = V c main_v50 (((cfg1.win 2).blk t).view.emb j) := by
    show V c main_v50 (((cfg1.win 0).blk t).view.emb j) = _
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have hb : iblk1 V c 1 t (blkRowZero j) = V c main_v34 (rowZero (((cfg1.win 2).blk t).view.emb j)) := by
    show V c main_v34 (((cfg1.win 1).blk t).view.emb (blkRowZero j)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [hx, hb]

/-- An index of the result array lies in point `t`'s block iff each coordinate lies in the block's range. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v51).slice (win1_2.rect t)).set ↔ _
  rw [View.set_slice_whole, Rect.mem_set_unit]
  exact Iff.rfl

/-- The ten blocks cover the array: row `r` is in the block of point `r / 10000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨e0, e1, e2, e3, e4, e5⟩ := blockIndices t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    rw [e5]; show (i 0).val / 10000 * 10000 ≤ (i 0).val ∧ (i 0).val < (i 0).val / 10000 * 10000 + 10000; omega
  | ⟨1, _⟩ =>
    show win1_2.index t (1 : Fin 2) * 128 ≤ (i 1).val ∧ (i 1).val < win1_2.index t (1 : Fin 2) * 128 + 128
    rw [e4]; omega

/-- THE ARRAY region 1 leaves: the bias added row-wise to the array it found, rectified. -/
theorem array_eq (c : Dev nD) : (dat1 V c).arrAt 2 cfg1.N = addRowRelu (V c main_v50) (V c main_v34) :=
  (dat1 V c).arrAt_eq_of_cover 2 _ (fun t _ => flushed_eq V c t) covered

end Cert.KernelIdeal.BiasRelu

end
-- ==== Proof.Bias.lean ====
/-
  The second layer's bias. Region 3 adds the second bias row under every block of the second aggregation and applies
  no rectifier: entry (r, c) of what it leaves is a (r, c) + b (0, c).
-/
import proofs.«145099_j2619930050604_1_alg».proof.Proof.BiasRelu

set_option maxRecDepth 16384

noncomputable section

namespace Cert.KernelIdeal.Bias

open Cert.KernelIdeal Cert.KernelIdeal.Gen Cert.KernelIdeal.BiasRelu Idealize.ShloMosaic Idealize.ShloMosaic.TcCoe Idealize.SL.Sem
open Idealize.ShloMosaic.Pipeline (Dat Cfg Window)

/-- The body's stored value at an entry of the block. -/
theorem payload_apply (xb : FVec Ideal S10000x128 .f32) (bb : FVec Ideal S1x128 .f32) (j : S10000x128.Idx) :
    k3_pay1 (F := Ideal) xb bb j = FloatOps.addf (xb j) (bb (blkRowZero j)) := by
  unfold k3_pay1
  simp only [shapeCast_self]
  show FloatOps.addf (xb j) (broadcastTo S10000x128 bb broadcasts_S1x128_S10000x128 j) = _
  rw [broadcastRow_apply]

variable (V : (c : Dev nD) → (b : Ref sig .tc) → Buf (Elt Ideal) ((c : Thread nD τ).loc b))

/-- The printed index maps over the ten points: the input's block and the result's block at block row `t`, the bias
    row's block and every column index at 0. -/
theorem blockIndices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What point `t` writes back is block `t` of the biased array. -/
theorem flushed_eq (c : Dev nD) (t : Fin cfg3.N) :
    (dat3 V c).flushed 2 t = ((cfg3.win 2).blk t).view.read (Elt Ideal) (addRow (V c main_v66) (V c main_v35)) := by
  show (cfg3.win 2).cut (grid3.coords t) ((dat3 V c).after 2 t) = _
  rw [after3_2]
  unfold out3_2
  rw [View.canon_unit_zero zeroOffsets]
  simp only [View.ld_unit_zero (S := S10000x128) zeroOffsets, View.ld_unit_zero (S := S1x128) zeroOffsets]
  obtain ⟨e0, e1, e2, e3, e4, e5⟩ := blockIndices t
  funext j
  show k3_pay1 (F := Ideal) (iblk3 V c 0 t) (iblk3 V c 1 t) j = addRow (V c main_v66) (V c main_v35) (((cfg3.win 2).blk t).view.emb j)
  refine (payload_apply (iblk3 V c 0 t) (iblk3 V c 1 t) j).trans ?_
  unfold addRow
  have hx : iblk3 V c 0 t j = V c main_v66 (((cfg3.win 2).blk t).view.emb j) := by
    show V c main_v66 (((cfg3.win 0).blk t).view.emb j) = _
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have hb : iblk3 V c 1 t (blkRowZero j) = V c main_v35 (rowZero (((cfg3.win 2).blk t).view.emb j)) := by
    show V c main_v35 (((cfg3.win 1).blk t).view.emb (blkRowZero j)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [hx, hb]

/-- An index of the result array lies in point `t`'s block iff each coordinate lies in the block's range. -/
theorem mem_block (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v67).slice (win3_2.rect t)).set ↔ _
  rw [View.set_slice_whole, Rect.mem_set_unit]
  exact Iff.rfl

/-- The ten blocks cover the array: row `r` is in the block of point `r / 10000`. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  obtain ⟨e0, e1, e2, e3, e4, e5⟩ := blockIndices t
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    rw [e5]; show (i 0).val / 10000 * 10000 ≤ (i 0).val ∧ (i 0).val < (i 0).val / 10000 * 10000 + 10000; omega
  | ⟨1, _⟩ =>
    show win3_2.index t (1 : Fin 2) * 128 ≤ (i 1).val ∧ (i 1).val < win3_2.index t (1 : Fin 2) * 128 + 128
    rw [e4]; omega

/-- THE ARRAY region 3 leaves: the bias added row-wise to the array it found. -/
theorem array_eq (c : Dev nD) : (dat3 V c).arrAt 2 cfg3.N = addRow (V c main_v66) (V c main_v35) :=
  (dat3 V c).arrAt_eq_of_cover 2 _ (fun t _ => flushed_eq V c t) covered

end Cert.KernelIdeal.Bias

end
-- ==== Proof.Readout.lean ====
/-
  The readout. Region 4 has one grid point: it takes the pooled [64, 128] array whole, multiplies it by the [128, 8]
  matrix into a zero accumulator and adds the [1, 8] bias row under every row. Over the extended reals the change of
  format before the product is the identity, so entry (g, c) of what it leaves is the sum over k of the pooled (g, k)
  times the matrix's (k, c), plus the bias's (0, c).
-/
import proofs.«145099_j2619930050604_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Readout

open Cert.KernelIdeal Cert.KernelIdeal.Gen Idealize.ShloMosaic Idealize.ShloMosaic.TcCoe Idealize.SL.Sem
open Idealize.ShloMosaic.Pipeline (Dat Cfg Window)

/-- Row `g` of the pooled array at inner coordinate `k`; the matrix at (k, column); the bias row under the column. -/
abbrev pooledAt (i : S64x8.Idx) (k : Fin 128) : S64x128.Idx := fun a => match a with
  | ⟨0, _⟩ => ⟨(i 0).val, (i 0).isLt⟩
  | ⟨1, _⟩ => ⟨k.val, k.isLt⟩
abbrev weightAt (i : S64x8.Idx) (k : Fin 128) : S128x8.Idx := fun a => match a with
  | ⟨0, _⟩ => ⟨k.val, k.isLt⟩
  | ⟨1, _⟩ => ⟨(i 1).val, (i 1).isLt⟩
abbrev biasAt (i : S64x8.Idx) : S1x8.Idx := fun a => match a with
  | ⟨0, _⟩ => ⟨0, Nat.one_pos⟩
  | ⟨1, _⟩ => ⟨(i 1).val, (i 1).isLt⟩

/-- The readout of a pooled array, entry by entry. -/
def readout (p : S64x128.Idx → EReal) (w : S128x8.Idx → EReal) (b : S1x8.Idx → EReal) : S64x8.Idx → EReal :=
  fun i => FloatOps.addf (F := Ideal) (φ := .f32) (∑ k : Fin 128, p (pooledAt i k) * w (weightAt i k)) (b (biasAt i))

theorem lhs_0 (i : S64x8.Idx) (q : dot_S64x128_S128x8_S64x8_1_0_0_1_n_n.contr.Idx) :
    (dot_S64x128_S128x8_S64x8_1_0_0_1_n_n.lhsIdx i q 0).val = (i 0).val := by
  unfold DotDims.lhsIdx
  rw [dif_neg (show ¬(0 : Fin S64x128.rank) ∈ dot_S64x128_S128x8_S64x8_1_0_0_1_n_n.lhsBatch by decide), dif_pos (show (0 : Fin S64x128.rank) ∈ dot_S64x128_S128x8_S64x8_1_0_0_1_n_n.lhsNonContracting by decide)]
  rfl
theorem lhs_1 (i : S64x8.Idx) (q : dot_S64x128_S128x8_S64x8_1_0_0_1_n_n.contr.Idx) :
    (dot_S64x128_S128x8_S64x8_1_0_0_1_n_n.lhsIdx i q 1).val = (q ⟨0, by decide⟩).val :=
  dot_S64x128_S128x8_S64x8_1_0_0_1_n_n.lhsIdx_val_of_single rfl i q
theorem rhs_0 (i : S64x8.Idx) (q : dot_S64x128_S128x8_S64x8_1_0_0_1_n_n.contr.Idx) :
    (dot_S64x128_S128x8_S64x8_1_0_0_1_n_n.rhsIdx i q 0).val = (q ⟨0, by decide⟩).val :=
  dot_S64x128_S128x8_S64x8_1_0_0_1_n_n.rhsIdx_val_of_single rfl i q
theorem rhs_1 (i : S64x8.Idx) (q : dot_S64x128_S128x8_S64x8_1_0_0_1_n_n.contr.Idx) :
    (dot_S64x128_S128x8_S64x8_1_0_0_1_n_n.rhsIdx i q 1).val = (i 1).val := by
  unfold DotDims.rhsIdx
  rw [dif_neg (show ¬(1 : Fin S128x8.rank) ∈ dot_S64x128_S128x8_S64x8_1_0_0_1_n_n.rhsBatch by decide), dif_pos (show (1 : Fin S128x8.rank) ∈ dot_S64x128_S128x8_S64x8_1_0_0_1_n_n.rhsNonContracting by decide)]
  rfl

/-- The product into the zero accumulator, read at an entry: the sum over the inner coordinate. -/
theorem product_apply (xb : FVec Ideal S64x128 .bf16) (wb : FVec Ideal S128x8 .bf16) (j : S64x8.Idx) :
    matmul dot_S64x128_S128x8_S64x8_1_0_0_1_n_n none xb wb (constant S64x8 .f32 0x00000000#32) j
      = ∑ k : Fin 128, xb (pooledAt j k) * wb (weightAt j k) := by
  simp only [matmul]
  rw [Ideal.matmul_constant_zero_apply, ← Equiv.sum_comp (ValueIdx.contrEquiv1 dot_S64x128_S128x8_S64x8_1_0_0_1_n_n 128 rfl rfl).symm]
  refine Finset.sum_congr rfl fun k _ => ?_
  have hk := ValueIdx.contrEquiv1_symm_val dot_S64x128_S128x8_S64x8_1_0_0_1_n_n 128 rfl rfl k
  have el : dot_S64x128_S128x8_S64x8_1_0_0_1_n_n.lhsIdx j ((ValueIdx.contrEquiv1 dot_S64x128_S128x8_S64x8_1_0_0_1_n_n 128 rfl rfl).symm k) = pooledAt j k := funext fun a => Fin.ext (by
    match a with
    | ⟨0, _⟩ => exact lhs_0 _ _
    | ⟨1, _⟩ => exact (lhs_1 _ _).trans hk)
  have er : dot_S64x128_S128x8_S64x8_1_0_0_1_n_n.rhsIdx j ((ValueIdx.contrEquiv1 dot_S64x128_S128x8_S64x8_1_0_0_1_n_n 128 rfl rfl).symm k) = weightAt j k := funext fun a => Fin.ext (by
    match a with
    | ⟨0, _⟩ => exact (rhs_0 _ _).trans hk
    | ⟨1, _⟩ => exact rhs_1 _ _)
  rw [el, er]

/-- The bias row broadcast down the 64 rows, read at an entry. -/
theorem broadcastRow_apply (bb : FVec Ideal S1x8 .f32) (j : S64x8.Idx) :
    broadcastTo S64x8 bb broadcasts_S1x8_S64x8 j = bb (biasAt j) :=
  broadcastTo_apply bb broadcasts_S1x8_S64x8 j (biasAt j) (fun a => match a with
    | ⟨0, _⟩ => by show 0 = if (1 : Nat) = 1 then 0 else _; rw [if_pos rfl]
    | ⟨1, _⟩ => by show (j 1).val = if (8 : Nat) = 1 then 0 else _; rw [if_neg (by decide)]; rfl)

/-- The body's stored value at an entry (the change of format is the identity over the extended reals). -/
theorem payload_apply (pb : FVec Ideal S64x128 .f32) (wb : FVec Ideal S128x8 .bf16) (bb : FVec Ideal S1x8 .f32) (j : S64x8.Idx) :
    k4_pay1 (F := Ideal) pb wb bb j
      = FloatOps.addf (F := Ideal) (φ := .f32) (∑ k : Fin 128, pb (pooledAt j k) * wb (weightAt j k)) (bb (biasAt j)) := by
  unfold k4_pay1
  simp only [shapeCast_self]
  show FloatOps.addf (F := Ideal) (φ := .f32) (matmul dot_S64x128_S128x8_S64x8_1_0_0_1_n_n none (truncf .bf16 pb bitsLt_bf16_f32) wb (constant S64x8 .f32 0x00000000#32) j)
    (broadcastTo S64x8 bb broadcasts_S1x8_S64x8 j) = _
  rw [product_apply, broadcastRow_apply]
  rfl

/-! ## From the one block to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps at the one point: every block index is 0. -/
theorem blockIndices : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the point writes back is the readout of the three arrays the region found, whole. -/
theorem flushed_eq (c : Dev nD) (t : Fin cfg4.N) :
    (dat4 V c).flushed 3 t = ((cfg4.win 3).blk t).view.read (Elt Ideal) (readout (V c main_v79) (V c main_v80) (V c main_v81)) := by
  show (cfg4.win 3).cut (grid4.coords t) ((dat4 V c).after 3 t) = _
  rw [after4_3]
  unfold out4_3
  rw [View.canon_unit_zero zeroOffsets]
  simp only [View.ld_unit_zero (S := S64x128) zeroOffsets, View.ld_unit_zero (S := S128x8) zeroOffsets, View.ld_unit_zero (S := S1x8) zeroOffsets]
  obtain ⟨e0, e1, e2, e3, e4, e5, e6, e7⟩ := blockIndices t
  funext j
  show k4_pay1 (F := Ideal) (iblk4 V c 0 t) (iblk4 V c 1 t) (iblk4 V c 2 t) j = readout (V c main_v79) (V c main_v80) (V c main_v81) (((cfg4.win 3).blk t).view.emb j)
  refine (payload_apply (iblk4 V c 0 t) (iblk4 V c 1 t) (iblk4 V c 2 t) j).trans ?_
  unfold readout
  have hb : iblk4 V c 2 t (biasAt j) = V c main_v81 (biasAt (((cfg4.win 3).blk t).view.emb j)) := by
    show V c main_v81 (((cfg4.win 2).blk t).view.emb (biasAt j)) = _
    refine congrArg _ (funext fun a => Fin.ext ?_)
    match a with
    | ⟨0, _⟩ => show win4_2.index t (0 : Fin 2) * 1 + 1 * 0 = 0; omega
    | ⟨1, _⟩ => show win4_2.index t (1 : Fin 2) * 8 + 1 * (j 1).val = win4_3.index t (1 : Fin 2) * 8 + 1 * (j 1).val; omega
  rw [hb]
  refine congrArg (fun s => FloatOps.addf (F := Ideal) (φ := .f32) s _) (Finset.sum_congr rfl fun k _ => ?_)
  have hp : iblk4 V c 0 t (pooledAt j k) = V c main_v79 (pooledAt (((cfg4.win 3).blk t).view.emb j) k) := by
    show V c main_v79 (((cfg4.win 0).blk t).view.emb (pooledAt j k)) = _
    refine congrArg _ (funext fun a => Fin.ext ?_)
    match a with
    | ⟨0, _⟩ => show win4_0.index t (0 : Fin 2) * 64 + 1 * (j 0).val = win4_3.index t (0 : Fin 2) * 64 + 1 * (j 0).val; omega
    | ⟨1, _⟩ => show win4_0.index t (1 : Fin 2) * 128 + 1 * k.val = k.val; omega
  have hw : iblk4 V c 1 t (weightAt j k) = V c main_v80 (weightAt (((cfg4.win 3).blk t).view.emb j) k) := by
    show V c main_v80 (((cfg4.win 1).blk t).view.emb (weightAt j k)) = _
    refine congrArg _ (funext fun a => Fin.ext ?_)
    match a with
    | ⟨0, _⟩ => show win4_1.index t (0 : Fin 2) * 128 + 1 * k.val = k.val; omega
    | ⟨1, _⟩ => show win4_1.index t (1 : Fin 2) * 8 + 1 * (j 1).val = win4_3.index t (1 : Fin 2) * 8 + 1 * (j 1).val; omega
  rw [hp, hw]

/-- An index of the result array lies in the point's block iff each coordinate lies in the block's range. -/
theorem mem_block (t : Fin cfg4.N) (i : S64x8.Idx) :
    i ∈ ((cfg4.win 3).blk t).view.set ↔ ∀ a : Fin 2, win4_3.index t a * S64x8.size a ≤ (i a).val ∧ (i a).val < win4_3.index t a * S64x8.size a + S64x8.size a := by
  show i ∈ ((View.whole main_v82).slice (win4_3.rect t)).set ↔ _
  rw [View.set_slice_whole, Rect.mem_set_unit]
  exact Iff.rfl

/-- The one block is the whole array. -/
theorem covered (i : S64x8.Idx) :
    ∃ t : Fin cfg4.N, (cfg4.win 3).flush t = true ∧ i ∈ ((cfg4.win 3).blk t).view.set := by
  have hi0 : (i 0).val < 64 := (i 0).isLt
  have hi1 : (i 1).val < 8 := (i 1).isLt
  obtain ⟨e0, e1, e2, e3, e4, e5, e6, e7⟩ := blockIndices t4_0
  refine ⟨t4_0, flush4_3 t4_0, ?_⟩
  rw [mem_block]
  intro a
  match a with
  | ⟨0, _⟩ =>
    show win4_3.index t4_0 (0 : Fin 2) * 64 ≤ (i 0).val ∧ (i 0).val < win4_3.index t4_0 (0 : Fin 2) * 64 + 64
    rw [e6]; omega
  | ⟨1, _⟩ =>
    show win4_3.index t4_0 (1 : Fin 2) * 8 ≤ (i 1).val ∧ (i 1).val < win4_3.index t4_0 (1 : Fin 2) * 8 + 8
    rw [e7]; omega

/-- THE ARRAY region 4 leaves: the readout of the three arrays it found. -/
theorem array_eq (c : Dev nD) : (dat4 V c).arrAt 3 cfg4.N = readout (V c main_v79) (V c main_v80) (V c main_v81) :=
  (dat4 V c).arrAt_eq_of_cover 3 _ (fun t _ => flushed_eq V c t) covered

end Cert.KernelIdeal.Readout

end
-- ==== Proof.Stretches.lean ====
/-
  The host operations between the kernel regions, one stretch at a time. Both programs gather, scale and
  scatter-add with the same operations; only the buffers' names differ. So, from ANY contents `W` of the buffers in
  which the arrays a stretch reads hold the reference's stages of the arguments, the array the stretch writes holds
  the reference's next stage — whatever the float family — and the arrays it does not write keep their contents.
-/
import proofs.«145099_j2619930050604_1_alg».proof.Proof.Gen.KernelIdeal.Launch
import proofs.«145099_j2619930050604_1_alg».proof.Proof.RefRead
import Idealize.ShloMosaic.Lib.StableHlo.Run

set_option maxRecDepth 16384

noncomputable section

namespace Cert.KernelIdeal.Stretches

open Cert.KernelIdeal Cert.KernelIdeal.Gen Cert.ReferenceIdeal.ReadP Idealize.ShloMosaic Idealize.ShloMosaic.TcCoe Idealize.SL.Sem Idealize.ShloMosaic.StableHlo

variable {F : FTy → Type} [FloatOps F] (W : Valuation τ sig (Elt F))
variable (x0 : (⟨S100000x128, .f32⟩ : BufTy).Contents (Elt F)) (x1 : (⟨S2x1600000, .i32⟩ : BufTy).Contents (Elt F))
  (x2 : (⟨S100000, .i32⟩ : BufTy).Contents (Elt F)) (x3 : (⟨S128x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F))

/-- A buffer no operation of the stretch writes: every operation's result is read at another reference. -/
local macro "kept" : tactic => `(tactic| first | (after_results_simp; done) | (after_results_simp; rfl))

/-! ## The edge lists with self loops and the degrees -/

set_option maxHeartbeats 1000000 in
theorem edges_v3 (h1 : W (Proc.devRef .tc main_arg1) = x1) :
    StableHlo.after hostOps0 W (Proc.devRef .tc main_v3) = val_main_v3 (F := F) x1 := by
  subst h1; after_results_simp; rfl
set_option maxHeartbeats 1000000 in
theorem edges_v6 (h1 : W (Proc.devRef .tc main_arg1) = x1) :
    StableHlo.after hostOps0 W (Proc.devRef .tc main_v6) = val_main_v6 (F := F) x1 := by
  subst h1; after_results_simp; rfl
set_option maxHeartbeats 1000000 in
theorem edges_v12 (h1 : W (Proc.devRef .tc main_arg1) = x1) :
    StableHlo.after hostOps0 W (Proc.devRef .tc main_v12) = val_main_v12 (F := F) x1 := by
  subst h1; after_results_simp; rfl
set_option maxHeartbeats 1000000 in
theorem edges_v15 (h1 : W (Proc.devRef .tc main_arg1) = x1) :
    StableHlo.after hostOps0 W (Proc.devRef .tc main_v15) = val_main_v15 (F := F) x1 := by
  subst h1; after_results_simp; rfl
set_option maxHeartbeats 1000000 in
theorem edges_cst_3 : StableHlo.after hostOps0 W (Proc.devRef .tc main_cst_3) = val_main_cst_3 (F := F) := by
  after_results_simp; rfl
set_option maxHeartbeats 1000000 in
theorem edges_kept : StableHlo.after hostOps0 W (Proc.devRef .tc main_arg0) = W (Proc.devRef .tc main_arg0)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg4) = W (Proc.devRef .tc main_arg4)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7)
    ∧ StableHlo.after hostOps0 W (Proc.devRef .tc main_arg8) = W (Proc.devRef .tc main_arg8) := by
  refine ⟨?_, ?_, ?_, ?_, ?_, ?_, ?_, ?_⟩ <;> kept

/-! ## The inverse square root of the degree where the degree is positive, zero elsewhere (the outlined select) -/

theorem select_v16 (h12 : W (Proc.devRef .tc main_v12) = val_main_v12 (F := F) x1)
    (h15 : W (Proc.devRef .tc main_v15) = val_main_v15 (F := F) x1)
    (hc : W (Proc.devRef .tc main_cst_3) = val_main_cst_3 (F := F)) :
    StableHlo.after hostOps0_1 W (Proc.devRef .tc main_v16) = val_main_v16 (F := F) x1 := by
  after_results_simp
  rw [h12, h15, hc]
  rfl
theorem select_kept : StableHlo.after hostOps0_1 W (Proc.devRef .tc main_v3) = W (Proc.devRef .tc main_v3)
    ∧ StableHlo.after hostOps0_1 W (Proc.devRef .tc main_v6) = W (Proc.devRef .tc main_v6)
    ∧ StableHlo.after hostOps0_1 W (Proc.devRef .tc main_arg0) = W (Proc.devRef .tc main_arg0)
    ∧ StableHlo.after hostOps0_1 W (Proc.devRef .tc main_arg2) = W (Proc.devRef .tc main_arg2)
    ∧ StableHlo.after hostOps0_1 W (Proc.devRef .tc main_arg3) = W (Proc.devRef .tc main_arg3)
    ∧ StableHlo.after hostOps0_1 W (Proc.devRef .tc main_arg4) = W (Proc.devRef .tc main_arg4)
    ∧ StableHlo.after hostOps0_1 W (Proc.devRef .tc main_arg5) = W (Proc.devRef .tc main_arg5)
    ∧ StableHlo.after hostOps0_1 W (Proc.devRef .tc main_arg6) = W (Proc.devRef .tc main_arg6)
    ∧ StableHlo.after hostOps0_1 W (Proc.devRef .tc main_arg7) = W (Proc.devRef .tc main_arg7)
    ∧ StableHlo.after hostOps0_1 W (Proc.devRef .tc main_arg8) = W (Proc.devRef .tc main_arg8) := by
  refine ⟨?_, ?_, ?_, ?_, ?_, ?_, ?_, ?_, ?_, ?_⟩ <;> kept

/-! ## The edge norms, the casts and the bias rows -/

set_option maxHeartbeats 1000000 in
theorem norms_v31 (h16 : W (Proc.devRef .tc main_v16) = val_main_v16 (F := F) x1)
    (h3 : W (Proc.devRef .tc main_v3) = val_main_v3 (F := F) x1) (h6 : W (Proc.devRef .tc main_v6) = val_main_v6 (F := F) x1) :
    StableHlo.after hostOps0_2 W (Proc.devRef .tc main_v31) = val_main_v31 (F := F) x1 := by
  after_results_simp
  rw [h16, h3, h6]
  rfl
set_option maxHeartbeats 1000000 in
theorem norms_v32 : StableHlo.after hostOps0_2 W (Proc.devRef .tc main_v32) = truncf .bf16 (W (Proc.devRef .tc main_arg3)) bitsLt_bf16_f32 := by
  first | (after_results_simp; done) | (after_results_simp; rfl)
set_option maxHeartbeats 1000000 in
theorem norms_v33 : StableHlo.after hostOps0_2 W (Proc.devRef .tc main_v33) = truncf .bf16 (W (Proc.devRef .tc main_arg5)) bitsLt_bf16_f32 := by
  first | (after_results_simp; done) | (after_results_simp; rfl)
set_option maxHeartbeats 1000000 in
theorem norms_v34 : StableHlo.after hostOps0_2 W (Proc.devRef .tc main_v34) = shapeCast S1x128 (W (Proc.devRef .tc main_arg4)) shapeCasts_S128_S1x128 := by
  first | (after_results_simp; done) | (after_results_simp; rfl)
set_option maxHeartbeats 1000000 in
theorem norms_v35 : StableHlo.after hostOps0_2 W (Proc.devRef .tc main_v35) = shapeCast S1x128 (W (Proc.devRef .tc main_arg6)) shapeCasts_S128_S1x128 := by
  first | (after_results_simp; done) | (after_results_simp; rfl)
set_option maxHeartbeats 1000000 in
theorem norms_v36 : StableHlo.after hostOps0_2 W (Proc.devRef .tc main_v36) = truncf .bf16 (W (Proc.devRef .tc main_arg0)) bitsLt_bf16_f32 := by
  first | (after_results_simp; done) | (after_results_simp; rfl)
set_option maxHeartbeats 1000000 in
theorem norms_kept : StableHlo.after hostOps0_2 W (Proc.devRef .tc main_v3) = W (Proc.devRef .tc main_v3)
    ∧ StableHlo.after hostOps0_2 W (Proc.devRef .tc main_v6) = W (Proc.devRef .tc main_v6)
    ∧ StableHlo.after hostOps0_2 W (Proc.devRef .tc main_arg2) = W (Proc.devRef .tc main_arg2)
    ∧ StableHlo.after hostOps0_2 W (Proc.devRef .tc main_arg7) = W (Proc.devRef .tc main_arg7)
    ∧ StableHlo.after hostOps0_2 W (Proc.devRef .tc main_arg8) = W (Proc.devRef .tc main_arg8) := by
  refine ⟨?_, ?_, ?_, ?_, ?_⟩ <;> kept

/-! ## After the first product: gather the rows at the sources, scale by the edge norms, scatter-add at the targets -/

set_option maxHeartbeats 1000000 in
theorem first_v50 (h37 : W (Proc.devRef .tc main_v37) = val_main_v32 (F := F) x0 x3)
    (h3 : W (Proc.devRef .tc main_v3) = val_main_v3 (F := F) x1) (h6 : W (Proc.devRef .tc main_v6) = val_main_v6 (F := F) x1)
    (h31 : W (Proc.devRef .tc main_v31) = val_main_v31 (F := F) x1) :
    StableHlo.after hostOps1 W (Proc.devRef .tc main_v50) = val_main_v45 (F := F) x0 x1 x3 := by
  after_results_simp
  rw [h37, h3, h6, h31]
  rfl
set_option maxHeartbeats 1000000 in
theorem first_kept : StableHlo.after hostOps1 W (Proc.devRef .tc main_v3) = W (Proc.devRef .tc main_v3)
    ∧ StableHlo.after hostOps1 W (Proc.devRef .tc main_v6) = W (Proc.devRef .tc main_v6)
    ∧ StableHlo.after hostOps1 W (Proc.devRef .tc main_v31) = W (Proc.devRef .tc main_v31)
    ∧ StableHlo.after hostOps1 W (Proc.devRef .tc main_v33) = W (Proc.devRef .tc main_v33)
    ∧ StableHlo.after hostOps1 W (Proc.devRef .tc main_v34) = W (Proc.devRef .tc main_v34)
    ∧ StableHlo.after hostOps1 W (Proc.devRef .tc main_v35) = W (Proc.devRef .tc main_v35)
    ∧ StableHlo.after hostOps1 W (Proc.devRef .tc main_arg2) = W (Proc.devRef .tc main_arg2)
    ∧ StableHlo.after hostOps1 W (Proc.devRef .tc main_arg7) = W (Proc.devRef .tc main_arg7)
    ∧ StableHlo.after hostOps1 W (Proc.devRef .tc main_arg8) = W (Proc.devRef .tc main_arg8) := by
  refine ⟨?_, ?_, ?_, ?_, ?_, ?_, ?_, ?_, ?_⟩ <;> kept

/-! ## Between the rectifier and the second product: one change of format -/

theorem cast_v52 : StableHlo.after hostOps2 W (Proc.devRef .tc main_v52) = truncf .bf16 (W (Proc.devRef .tc main_v51)) bitsLt_bf16_f32 := by
  first | (after_results_simp; done) | (after_results_simp; rfl)
theorem cast_kept : StableHlo.after hostOps2 W (Proc.devRef .tc main_v3) = W (Proc.devRef .tc main_v3)
    ∧ StableHlo.after hostOps2 W (Proc.devRef .tc main_v6) = W (Proc.devRef .tc main_v6)
    ∧ StableHlo.after hostOps2 W (Proc.devRef .tc main_v31) = W (Proc.devRef .tc main_v31)
    ∧ StableHlo.after hostOps2 W (Proc.devRef .tc main_v33) = W (Proc.devRef .tc main_v33)
    ∧ StableHlo.after hostOps2 W (Proc.devRef .tc main_v35) = W (Proc.devRef .tc main_v35)
    ∧ StableHlo.after hostOps2 W (Proc.devRef .tc main_arg2) = W (Proc.devRef .tc main_arg2)
    ∧ StableHlo.after hostOps2 W (Proc.devRef .tc main_arg7) = W (Proc.devRef .tc main_arg7)
    ∧ StableHlo.after hostOps2 W (Proc.devRef .tc main_arg8) = W (Proc.devRef .tc main_arg8) := by
  refine ⟨?_, ?_, ?_, ?_, ?_, ?_, ?_, ?_⟩ <;> kept

/-! ## After the second product: the same gather, scale and scatter-add -/

set_option maxHeartbeats 1000000 in
theorem second_v66 (h53 : W (Proc.devRef .tc main_v53) = val_main_v50 (F := F) x0 x1 x3 x4 x5)
    (h3 : W (Proc.devRef .tc main_v3) = val_main_v3 (F := F) x1) (h6 : W (Proc.devRef .tc main_v6) = val_main_v6 (F := F) x1)
    (h31 : W (Proc.devRef .tc main_v31) = val_main_v31 (F := F) x1) :
    StableHlo.after hostOps3 W (Proc.devRef .tc main_v66) = val_main_v63 (F := F) x0 x1 x3 x4 x5 := by
  after_results_simp
  rw [h53, h3, h6, h31]
  rfl
set_option maxHeartbeats 1000000 in
theorem second_kept : StableHlo.after hostOps3 W (Proc.devRef .tc main_v35) = W (Proc.devRef .tc main_v35)
    ∧ StableHlo.after hostOps3 W (Proc.devRef .tc main_arg2) = W (Proc.devRef .tc main_arg2)
    ∧ StableHlo.after hostOps3 W (Proc.devRef .tc main_arg7) = W (Proc.devRef .tc main_arg7)
    ∧ StableHlo.after hostOps3 W (Proc.devRef .tc main_arg8) = W (Proc.devRef .tc main_arg8) := by
  refine ⟨?_, ?_, ?_, ?_⟩ <;> kept

/-! ## After the second bias: the mean over each graph, the cast matrix and the bias row of the readout -/

set_option maxHeartbeats 1000000 in
theorem pool_v79 (h67 : W (Proc.devRef .tc main_v67) = val_main_v66 (F := F) x0 x1 x3 x4 x5 x6)
    (h2 : W (Proc.devRef .tc main_arg2) = x2) :
    StableHlo.after hostOps4 W (Proc.devRef .tc main_v79) = val_main_v78 (F := F) x0 x1 x2 x3 x4 x5 x6 := by
  after_results_simp
  rw [h67, h2]
  rfl
set_option maxHeartbeats 1000000 in
theorem pool_v80 : StableHlo.after hostOps4 W (Proc.devRef .tc main_v80) = truncf .bf16 (W (Proc.devRef .tc main_arg7)) bitsLt_bf16_f32 := by
  first | (after_results_simp; done) | (after_results_simp; rfl)
set_option maxHeartbeats 1000000 in
theorem pool_v81 : StableHlo.after hostOps4 W (Proc.devRef .tc main_v81) = shapeCast S1x8 (W (Proc.devRef .tc main_arg8)) shapeCasts_S8_S1x8 := by
  first | (after_results_simp; done) | (after_results_simp; rfl)

end Cert.KernelIdeal.Stretches

end
-- ==== Proof.Fold.lean ====
/-
  The kernel's result, read back through its program. The program alternates stretches of host operations with the
  five kernel regions; what the buffers hold at each boundary is a fold from the launch memory. Walking the fold once:
  at every boundary the arrays the later items read hold the REFERENCE's stages of the argument arrays — the host
  stretches because they are the reference's own operations, the two products because a product taken block by
  block is the whole product, the bias regions because they add the same row under every block, and the readout
  because a change of float format is the identity over the extended reals. At the last boundary the result buffer
  holds the reference's last stage.
-/
import proofs.«145099_j2619930050604_1_alg».proof.Proof.Gen.KernelIdeal.Frame
import proofs.«145099_j2619930050604_1_alg».proof.Proof.FirstProduct
import proofs.«145099_j2619930050604_1_alg».proof.Proof.SecondProduct
import proofs.«145099_j2619930050604_1_alg».proof.Proof.BiasRelu
import proofs.«145099_j2619930050604_1_alg».proof.Proof.Bias
import proofs.«145099_j2619930050604_1_alg».proof.Proof.Readout
import proofs.«145099_j2619930050604_1_alg».proof.Proof.Stretches

set_option maxRecDepth 16384

noncomputable section

namespace Cert.KernelIdeal.Fold

open Cert.KernelIdeal Cert.KernelIdeal.Gen Cert.KernelIdeal.Stretches Cert.ReferenceIdeal.ReadP
open Idealize.ShloMosaic Idealize.ShloMosaic.TcCoe Idealize.SL.Sem Idealize.ShloMosaic.StableHlo

/-! ## Two reshapes read at an index: a vector as a one-row matrix -/

theorem rowOf128_apply (x : S128.Idx → EReal) (j : S1x128.Idx) (k : S128.Idx) (hk : (k 0).val = (j 1).val) :
    shapeCast S1x128 x shapeCasts_S128_S1x128 j = x k :=
  shapeCast_apply x shapeCasts_S128_S1x128 j k (by
    have h0 : (j 0).val < 1 := (j 0).isLt
    rw [Shape.rowMajor_val_one, Shape.rowMajor_val_two]
    show (k 0).val = (j 0).val * 128 + (j 1).val
    omega)

theorem rowOf8_apply (x : S8.Idx → EReal) (j : S1x8.Idx) (k : S8.Idx) (hk : (k 0).val = (j 1).val) :
    shapeCast S1x8 x shapeCasts_S8_S1x8 j = x k :=
  shapeCast_apply x shapeCasts_S8_S1x8 j k (by
    have h0 : (j 0).val < 1 := (j 0).isLt
    rw [Shape.rowMajor_val_one, Shape.rowMajor_val_two]
    show (k 0).val = (j 0).val * 8 + (j 1).val
    omega)

variable (m : (ℓ : Loc nD τ sig) → Buf (Elt Ideal) ℓ) (ρ : Dev nD → PrngReg) (c : Dev nD)

/-! ## The argument arrays as launched -/

abbrev A0 : (⟨S100000x128, .f32⟩ : BufTy).Contents (Elt Ideal) := m ((c : Thread nD τ).loc main_arg0)
abbrev A1 : (⟨S2x1600000, .i32⟩ : BufTy).Contents (Elt Ideal) := m ((c : Thread nD τ).loc main_arg1)
abbrev A2 : (⟨S100000, .i32⟩ : BufTy).Contents (Elt Ideal) := m ((c : Thread nD τ).loc main_arg2)
abbrev A3 : (⟨S128x128, .f32⟩ : BufTy).Contents (Elt Ideal) := m ((c : Thread nD τ).loc main_arg3)
abbrev A4 : (⟨S128, .f32⟩ : BufTy).Contents (Elt Ideal) := m ((c : Thread nD τ).loc main_arg4)
abbrev A5 : (⟨S128x128, .f32⟩ : BufTy).Contents (Elt Ideal) := m ((c : Thread nD τ).loc main_arg5)
abbrev A6 : (⟨S128, .f32⟩ : BufTy).Contents (Elt Ideal) := m ((c : Thread nD τ).loc main_arg6)
abbrev A7 : (⟨S128x8, .f32⟩ : BufTy).Contents (Elt Ideal) := m ((c : Thread nD τ).loc main_arg7)
abbrev A8 : (⟨S8, .f32⟩ : BufTy).Contents (Elt Ideal) := m ((c : Thread nD τ).loc main_arg8)

/-- What the edge data computed before the first region, and the arguments read after the last aggregation, hold at
    a boundary: the source and target lists, the edge norms, and the three arguments the pooling and the readout
    read. No item of the program after the leading stretches writes any of them. -/
structure Edges (W : Valuation τ sig (Elt Ideal)) : Prop where
  v3 : W (Proc.devRef .tc main_v3) = val_main_v3 (F := Ideal) (A1 m c)
  v6 : W (Proc.devRef .tc main_v6) = val_main_v6 (F := Ideal) (A1 m c)
  v31 : W (Proc.devRef .tc main_v31) = val_main_v31 (F := Ideal) (A1 m c)
  a2 : W (Proc.devRef .tc main_arg2) = A2 m c
  a7 : W (Proc.devRef .tc main_arg7) = A7 m c
  a8 : W (Proc.devRef .tc main_arg8) = A8 m c

/-! ## Up to the first region -/

theorem w1_v3 : W1 m ρ c (Proc.devRef .tc main_v3) = val_main_v3 (F := Ideal) (A1 m c) := edges_v3 (W0 m ρ c) (A1 m c) rfl
theorem w1_v6 : W1 m ρ c (Proc.devRef .tc main_v6) = val_main_v6 (F := Ideal) (A1 m c) := edges_v6 (W0 m ρ c) (A1 m c) rfl
theorem w1_v12 : W1 m ρ c (Proc.devRef .tc main_v12) = val_main_v12 (F := Ideal) (A1 m c) := edges_v12 (W0 m ρ c) (A1 m c) rfl
theorem w1_v15 : W1 m ρ c (Proc.devRef .tc main_v15) = val_main_v15 (F := Ideal) (A1 m c) := edges_v15 (W0 m ρ c) (A1 m c) rfl
theorem w1_cst_3 : W1 m ρ c (Proc.devRef .tc main_cst_3) = val_main_cst_3 (F := Ideal) := edges_cst_3 (W0 m ρ c)

theorem w2_v16 : W2 m ρ c (Proc.devRef .tc main_v16) = val_main_v16 (F := Ideal) (A1 m c) :=
  select_v16 (W1 m ρ c) (A1 m c) (w1_v12 m ρ c) (w1_v15 m ρ c) (w1_cst_3 m ρ c)
theorem w2_v3 : W2 m ρ c (Proc.devRef .tc main_v3) = val_main_v3 (F := Ideal) (A1 m c) :=
  (select_kept (W1 m ρ c)).1.trans (w1_v3 m ρ c)
theorem w2_v6 : W2 m ρ c (Proc.devRef .tc main_v6) = val_main_v6 (F := Ideal) (A1 m c) :=
  (select_kept (W1 m ρ c)).2.1.trans (w1_v6 m ρ c)
/-- The arguments are untouched by the first two stretches. -/
theorem w2_args : W2 m ρ c (Proc.devRef .tc main_arg0) = A0 m c ∧ W2 m ρ c (Proc.devRef .tc main_arg2) = A2 m c
    ∧ W2 m ρ c (Proc.devRef .tc main_arg3) = A3 m c ∧ W2 m ρ c (Proc.devRef .tc main_arg4) = A4 m c
    ∧ W2 m ρ c (Proc.devRef .tc main_arg5) = A5 m c ∧ W2 m ρ c (Proc.devRef .tc main_arg6) = A6 m c
    ∧ W2 m ρ c (Proc.devRef .tc main_arg7) = A7 m c ∧ W2 m ρ c (Proc.devRef .tc main_arg8) = A8 m c := by
  obtain ⟨-, -, s0, s2, s3, s4, s5, s6, s7, s8⟩ := select_kept (W1 m ρ c)
  obtain ⟨e0, e2, e3, e4, e5, e6, e7, e8⟩ := edges_kept (W0 m ρ c)
  exact ⟨s0.trans e0, s2.trans e2, s3.trans e3, s4.trans e4, s5.trans e5, s6.trans e6, s7.trans e7, s8.trans e8⟩

theorem w3_v32 : W3 m ρ c (Proc.devRef .tc main_v32) = (truncf .bf16 (A3 m c) bitsLt_bf16_f32 : FVec Ideal S128x128 .bf16) :=
  (norms_v32 (W2 m ρ c)).trans (congrArg (fun y => truncf .bf16 y bitsLt_bf16_f32) (w2_args m ρ c).2.2.1)
theorem w3_v36 : W3 m ρ c (Proc.devRef .tc main_v36) = (truncf .bf16 (A0 m c) bitsLt_bf16_f32 : FVec Ideal S100000x128 .bf16) :=
  (norms_v36 (W2 m ρ c)).trans (congrArg (fun y => truncf .bf16 y bitsLt_bf16_f32) (w2_args m ρ c).1)

theorem edges3 : Edges m c (W3 m ρ c) := by
  obtain ⟨k3, k6, k2, k7, k8⟩ := norms_kept (W2 m ρ c)
  obtain ⟨a0, a2, a3, a4, a5, a6, a7, a8⟩ := w2_args m ρ c
  exact {
    v3 := k3.trans (w2_v3 m ρ c)
    v6 := k6.trans (w2_v6 m ρ c)
    v31 := norms_v31 (W2 m ρ c) (A1 m c) (w2_v16 m ρ c) (w2_v3 m ρ c) (w2_v6 m ρ c)
    a2 := k2.trans a2
    a7 := k7.trans a7
    a8 := k8.trans a8 }

/-- The second weight matrix cast, and the two bias rows, as the leading stretches leave them. -/
theorem w3_v33 : W3 m ρ c (Proc.devRef .tc main_v33) = (truncf .bf16 (A5 m c) bitsLt_bf16_f32 : FVec Ideal S128x128 .bf16) :=
  (norms_v33 (W2 m ρ c)).trans (congrArg (fun y => truncf .bf16 y bitsLt_bf16_f32) (w2_args m ρ c).2.2.2.2.1)
theorem w3_v34 : W3 m ρ c (Proc.devRef .tc main_v34) = shapeCast S1x128 (A4 m c) shapeCasts_S128_S1x128 :=
  (norms_v34 (W2 m ρ c)).trans (congrArg (fun y => shapeCast S1x128 y shapeCasts_S128_S1x128) (w2_args m ρ c).2.2.2.1)
theorem w3_v35 : W3 m ρ c (Proc.devRef .tc main_v35) = shapeCast S1x128 (A6 m c) shapeCasts_S128_S1x128 :=
  (norms_v35 (W2 m ρ c)).trans (congrArg (fun y => shapeCast S1x128 y shapeCasts_S128_S1x128) (w2_args m ρ c).2.2.2.2.2.1)

/-! ## The carried arrays across the regions and the stretches between them -/

theorem edges4 : Edges m c (W4 m ρ c) :=
  have h := edges3 m ρ c
  ⟨(W4_of_ne m ρ c main_v3 (by decide)).trans h.v3, (W4_of_ne m ρ c main_v6 (by decide)).trans h.v6,
    (W4_of_ne m ρ c main_v31 (by decide)).trans h.v31, (W4_of_ne m ρ c main_arg2 (by decide)).trans h.a2,
    (W4_of_ne m ρ c main_arg7 (by decide)).trans h.a7, (W4_of_ne m ρ c main_arg8 (by decide)).trans h.a8⟩

theorem edges5 : Edges m c (W5 m ρ c) :=
  have h := edges4 m ρ c
  let ⟨k3, k6, k31, _, _, _, k2, k7, k8⟩ := first_kept (W4 m ρ c)
  ⟨k3.trans h.v3, k6.trans h.v6, k31.trans h.v31, k2.trans h.a2, k7.trans h.a7, k8.trans h.a8⟩

theorem edges6 : Edges m c (W6 m ρ c) :=
  have h := edges5 m ρ c
  ⟨(W6_of_ne m ρ c main_v3 (by decide)).trans h.v3, (W6_of_ne m ρ c main_v6 (by decide)).trans h.v6,
    (W6_of_ne m ρ c main_v31 (by decide)).trans h.v31, (W6_of_ne m ρ c main_arg2 (by decide)).trans h.a2,
    (W6_of_ne m ρ c main_arg7 (by decide)).trans h.a7, (W6_of_ne m ρ c main_arg8 (by decide)).trans h.a8⟩

theorem edges7 : Edges m c (W7 m ρ c) :=
  have h := edges6 m ρ c
  let ⟨k3, k6, k31, _, _, k2, k7, k8⟩ := cast_kept (W6 m ρ c)
  ⟨k3.trans h.v3, k6.trans h.v6, k31.trans h.v31, k2.trans h.a2, k7.trans h.a7, k8.trans h.a8⟩

theorem edges8 : Edges m c (W8 m ρ c) :=
  have h := edges7 m ρ c
  ⟨(W8_of_ne m ρ c main_v3 (by decide)).trans h.v3, (W8_of_ne m ρ c main_v6 (by decide)).trans h.v6,
    (W8_of_ne m ρ c main_v31 (by decide)).trans h.v31, (W8_of_ne m ρ c main_arg2 (by decide)).trans h.a2,
    (W8_of_ne m ρ c main_arg7 (by decide)).trans h.a7, (W8_of_ne m ρ c main_arg8 (by decide)).trans h.a8⟩

/-- The three late arguments at the pooling's entry. -/
theorem args10 : W10 m ρ c (Proc.devRef .tc main_arg2) = A2 m c ∧ W10 m ρ c (Proc.devRef .tc main_arg7) = A7 m c
    ∧ W10 m ρ c (Proc.devRef .tc main_arg8) = A8 m c :=
  have h := edges8 m ρ c
  let ⟨_, k2, k7, k8⟩ := second_kept (W8 m ρ c)
  ⟨(W10_of_ne m ρ c main_arg2 (by decide)).trans (k2.trans h.a2), (W10_of_ne m ρ c main_arg7 (by decide)).trans (k7.trans h.a7),
    (W10_of_ne m ρ c main_arg8 (by decide)).trans (k8.trans h.a8)⟩

/-- The first bias row at region 1's entry. -/
theorem w5_v34 : W5 m ρ c (Proc.devRef .tc main_v34) = shapeCast S1x128 (A4 m c) shapeCasts_S128_S1x128 :=
  (first_kept (W4 m ρ c)).2.2.2.2.1.trans ((W4_of_ne m ρ c main_v34 (by decide)).trans (w3_v34 m ρ c))

/-- The second weight matrix cast at region 2's entry. -/
theorem w7_v33 : W7 m ρ c (Proc.devRef .tc main_v33) = (truncf .bf16 (A5 m c) bitsLt_bf16_f32 : FVec Ideal S128x128 .bf16) :=
  (cast_kept (W6 m ρ c)).2.2.2.1.trans ((W6_of_ne m ρ c main_v33 (by decide)).trans
    ((first_kept (W4 m ρ c)).2.2.2.1.trans ((W4_of_ne m ρ c main_v33 (by decide)).trans (w3_v33 m ρ c))))

/-- The second bias row at region 3's entry. -/
theorem w9_v35 : W9 m ρ c (Proc.devRef .tc main_v35) = shapeCast S1x128 (A6 m c) shapeCasts_S128_S1x128 :=
  (second_kept (W8 m ρ c)).1.trans ((W8_of_ne m ρ c main_v35 (by decide)).trans
    ((cast_kept (W6 m ρ c)).2.2.2.2.1.trans ((W6_of_ne m ρ c main_v35 (by decide)).trans
      ((first_kept (W4 m ρ c)).2.2.2.2.2.1.trans ((W4_of_ne m ρ c main_v35 (by decide)).trans (w3_v35 m ρ c))))))

/-! ## The stages, boundary by boundary -/

/-- After region 0: the features times the first weight matrix. -/
theorem stage4 : W4 m ρ c (Proc.devRef .tc main_v37) = val_main_v32 (F := Ideal) (A0 m c) (A3 m c) := by
  refine (W4_arr m ρ c 2).trans ?_
  rw [FirstProduct.array_eq (V3 m ρ) c]
  funext i
  rw [val_main_v32_apply]
  unfold FirstProduct.prod
  refine Finset.sum_congr rfl fun k _ => ?_
  exact congrArg₂ (· * ·) (congrFun (w3_v36 m ρ c) (FirstProduct.rowAt i k)) (congrFun (w3_v32 m ρ c) (FirstProduct.colAt i k))

/-- After the first gather, scale and scatter-add. -/
theorem stage5 : W5 m ρ c (Proc.devRef .tc main_v50) = val_main_v45 (F := Ideal) (A0 m c) (A1 m c) (A3 m c) :=
  have h := edges4 m ρ c
  first_v50 (W4 m ρ c) (A0 m c) (A1 m c) (A3 m c) (stage4 m ρ c) h.v3 h.v6 h.v31

/-- After region 1: the first bias added and the rectifier taken. -/
theorem stage6 : W6 m ρ c (Proc.devRef .tc main_v51) = val_main_v49 (F := Ideal) (A0 m c) (A1 m c) (A3 m c) (A4 m c) := by
  refine (W6_arr m ρ c 2).trans ?_
  rw [BiasRelu.array_eq (V5 m ρ) c]
  funext i
  rw [val_main_v49_apply, val_main_v48_apply, val_main_v47_apply, val_main_v46_apply, val_main_call1_v0_apply, val_main_call1_cst_apply]
  unfold BiasRelu.addRowRelu
  have e1 := congrFun (stage5 m ρ c) i
  have e2 := (congrFun (w5_v34 m ρ c) (BiasRelu.rowZero i)).trans
    (rowOf128_apply (A4 m c) (BiasRelu.rowZero i) (idx_main_v46 (idx_main_v47 i)) rfl)
  exact congrArg₂ (fun a b => FloatOps.maximumf (F := Ideal) (φ := .f32) (FloatOps.addf a b) (FloatOps.ofBits .f32 0x00000000#32)) e1 e2

/-- After the change of format: the same array. -/
theorem stage7 : W7 m ρ c (Proc.devRef .tc main_v52) = (truncf .bf16 (val_main_v49 (F := Ideal) (A0 m c) (A1 m c) (A3 m c) (A4 m c)) bitsLt_bf16_f32 : FVec Ideal S100000x128 .bf16) :=
  (cast_v52 (W6 m ρ c)).trans (congrArg (fun y => truncf .bf16 y bitsLt_bf16_f32) (stage6 m ρ c))

/-- After region 2: the hidden features times the second weight matrix. -/
theorem stage8 : W8 m ρ c (Proc.devRef .tc main_v53) = val_main_v50 (F := Ideal) (A0 m c) (A1 m c) (A3 m c) (A4 m c) (A5 m c) := by
  refine (W8_arr m ρ c 2).trans ?_
  rw [SecondProduct.array_eq (V7 m ρ) c]
  funext i
  rw [val_main_v50_apply]
  unfold FirstProduct.prod
  refine Finset.sum_congr rfl fun k _ => ?_
  exact congrArg₂ (· * ·) (congrFun (stage7 m ρ c) (FirstProduct.rowAt i k)) (congrFun (w7_v33 m ρ c) (FirstProduct.colAt i k))

/-- After the second gather, scale and scatter-add. -/
theorem stage9 : W9 m ρ c (Proc.devRef .tc main_v66) = val_main_v63 (F := Ideal) (A0 m c) (A1 m c) (A3 m c) (A4 m c) (A5 m c) :=
  have h := edges8 m ρ c
  second_v66 (W8 m ρ c) (A0 m c) (A1 m c) (A3 m c) (A4 m c) (A5 m c) (stage8 m ρ c) h.v3 h.v6 h.v31

/-- After region 3: the second bias added. -/
theorem stage10 : W10 m ρ c (Proc.devRef .tc main_v67) = val_main_v66 (F := Ideal) (A0 m c) (A1 m c) (A3 m c) (A4 m c) (A5 m c) (A6 m c) := by
  refine (W10_arr m ρ c 2).trans ?_
  rw [Bias.array_eq (V9 m ρ) c]
  funext i
  rw [val_main_v66_apply, val_main_v65_apply, val_main_v64_apply]
  unfold BiasRelu.addRow
  have e1 := congrFun (stage9 m ρ c) i
  have e2 := (congrFun (w9_v35 m ρ c) (BiasRelu.rowZero i)).trans
    (rowOf128_apply (A6 m c) (BiasRelu.rowZero i) (idx_main_v64 (idx_main_v65 i)) rfl)
  exact congrArg₂ (fun a b => FloatOps.addf (F := Ideal) (φ := .f32) a b) e1 e2

/-- After the pooling: the mean over each graph. -/
theorem stage11 : W11 m ρ c (Proc.devRef .tc main_v79) = val_main_v78 (F := Ideal) (A0 m c) (A1 m c) (A2 m c) (A3 m c) (A4 m c) (A5 m c) (A6 m c) :=
  pool_v79 (W10 m ρ c) (A0 m c) (A1 m c) (A2 m c) (A3 m c) (A4 m c) (A5 m c) (A6 m c) (stage10 m ρ c) (args10 m ρ c).1

/-- THE RESULT: after region 4 the result buffer holds the reference's last stage of the arguments. -/
theorem result : W12 m ρ c (Proc.devRef .tc main_v82)
    = val_main_v82 (F := Ideal) (A0 m c) (A1 m c) (A2 m c) (A3 m c) (A4 m c) (A5 m c) (A6 m c) (A7 m c) (A8 m c) := by
  refine (W12_arr m ρ c 3).trans ?_
  rw [Readout.array_eq (V11 m ρ) c]
  funext i
  rw [val_main_v82_apply, val_main_v79_apply, val_main_v81_apply, val_main_v80_apply]
  unfold Readout.readout
  have h80 : W11 m ρ c (Proc.devRef .tc main_v80) = (truncf .bf16 (A7 m c) bitsLt_bf16_f32 : FVec Ideal S128x8 .bf16) :=
    (pool_v80 (W10 m ρ c)).trans (congrArg (fun y => truncf .bf16 y bitsLt_bf16_f32) (args10 m ρ c).2.1)
  have h81 : W11 m ρ c (Proc.devRef .tc main_v81) = shapeCast S1x8 (A8 m c) shapeCasts_S8_S1x8 :=
    (pool_v81 (W10 m ρ c)).trans (congrArg (fun y => shapeCast S1x8 y shapeCasts_S8_S1x8) (args10 m ρ c).2.2)
  have eb := (congrFun h81 (Readout.biasAt i)).trans
    (rowOf8_apply (A8 m c) (Readout.biasAt i) (idx_main_v80 (idx_main_v81 i)) rfl)
  refine congrArg₂ (fun a b => FloatOps.addf (F := Ideal) (φ := .f32) a b) (Finset.sum_congr rfl fun k _ => ?_) eb
  exact congrArg₂ (· * ·) (congrFun (stage11 m ρ c) (Readout.pooledAt i k)) (congrFun h80 (Readout.weightAt i k))

end Cert.KernelIdeal.Fold

end
-- ==== Proof.lean ====
/-
  Two graph-convolution layers, a mean pool over the graphs and a linear readout, on 100000 nodes with 1.6 million
  edges and a self loop at every node: the kernel's program against the plain jnp reference, over the extended reals.

  Both programs build the source and target lists, count the degrees by a scatter-add of ones, take the inverse
  square root where the degree is positive, and form the edge norms by two gathers and a product; both aggregate by
  gathering rows at the sources, scaling by the norms and scatter-adding at the targets; both pool by two more
  scatter-adds and a quotient. Those host operations are the same in the two programs, operand for operand and
  literal for literal. They differ in five places, where the kernel's program runs a kernel region:
    * the two products with the 128 x 128 weight matrices run block by block, ten blocks of 10000 rows, each into a
      zero accumulator, on operands changed to a narrower float format; the reference takes one whole product. Over
      the extended reals a change of format is the identity, and a row of a block times the matrix is the same sum
      over the 128 inner coordinates as that row of the whole array times the matrix;
    * the two bias additions (the first followed by a maximum with zero) add a [1, 128] row under every block, where
      the reference broadcasts the bias vector over the whole array and adds: entry by entry the same sum;
    * the readout changes the pooled array's format, multiplies by the [128, 8] matrix into a zero accumulator and
      adds a [1, 8] row, where the reference takes the product and adds the broadcast bias vector.
  Nothing beyond "the same sum of the same products" joins the two sides: each entry's sum runs over the same 128
  inner coordinates in both programs, and no factor is moved across a sum. So the precondition (finite inputs) is
  never opened.

  The frames of the two kernel programs are the generated ones. The reference has no kernel: its frame is its run
  with the result dropped. The idealization rewrote no operation, so `preserves` is `True`.
-/
import proofs.«145099_j2619930050604_1_alg».proof.Defs
import proofs.«145099_j2619930050604_1_alg».proof.Proof.Gen.Kernel
import proofs.«145099_j2619930050604_1_alg».proof.Proof.Gen.Kernel.Frame
import proofs.«145099_j2619930050604_1_alg».proof.Proof.Gen.KernelIdeal
import proofs.«145099_j2619930050604_1_alg».proof.Proof.Gen.KernelIdeal.Frame
import proofs.«145099_j2619930050604_1_alg».proof.Proof.Gen.ReferenceIdeal
import proofs.«145099_j2619930050604_1_alg».proof.Proof.Gen.Pre_finite_inputs
import proofs.«145099_j2619930050604_1_alg».proof.Proof.KernelRun
import proofs.«145099_j2619930050604_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the arguments unchanged: drop what it says of the result. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the result array at the reference's last
    stage of the arguments: the kernel's program by its run with the result named and the fold read back
    (`Fold.result`), the reference by its own run. -/
theorem algebraic : Cert.algebraic_KernelIdeal_ReferenceIdeal := by
  intro m ρ m' ρ' _ hagree
  refine ⟨fun c => Cert.KernelIdeal.Gen.W12 m ρ c (Proc.devRef .tc Cert.KernelIdeal.main_v82),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.ReferenceIdeal.ReadP.val_main_v82_eq, e0, e1, e2, e3, e4, e5, e6, e7, e8]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
